-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S1x1024x1024 : Shape := ⟨3, ![1, 1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  rotates_S1x1024x1024_d2 : S1x1024x1024.Rotates 2 none
  iota_S1x1024x1024_d2_w32 : S1x1024x1024.Iotas .tc 32 [2]
  rotates_S1x1024x1024_d1 : S1x1024x1024.Rotates 1 none
  iota_S1x1024x1024_d1_w32 : S1x1024x1024.Iotas .tc 32 [1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S_ : Shape := ⟨0, ![]⟩
abbrev S32x1025x1025 : Shape := ⟨3, ![32, 1025, 1025]⟩

abbrev nBuf : Space → Nat
  | .hbm => 79
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S_, .i32⟩
  | .hbm, ⟨2, _⟩ => ⟨S_, .f32⟩
  | .hbm, ⟨3, _⟩ => ⟨S32x1025x1025, .f32⟩
  | .hbm, ⟨4, _⟩ => ⟨S32x1024x1024, .f32⟩
  | .hbm, ⟨5, _⟩ => ⟨S32x1024x1024, .f32⟩
  | .hbm, ⟨6, _⟩ => ⟨S_, .f32⟩
  | .hbm, ⟨7, _⟩ => ⟨S32x1024x1024, .f32⟩
  | .hbm, ⟨8, _⟩ => ⟨S32x1024x1024, .f32⟩
  | .hbm, ⟨9, _⟩ => ⟨S32x1024x1024, .f32⟩
  | .hbm, ⟨10, _⟩ => ⟨S32x1024x1024, .f32⟩
  | .hbm, ⟨11, _⟩ => ⟨S_, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | .hbm, ⟨16, _⟩ => ⟨S_, .f32⟩
  | .hbm, ⟨17, _⟩ => ⟨S32x1024x1024, .f32⟩
  | .hbm, ⟨18, _⟩ => ⟨S32x1024x1024, .f32⟩
  | .hbm, ⟨19, _⟩ => ⟨S32x1024x1024, .f32⟩
  | .hbm, ⟨20, _⟩ => ⟨S32x1024x1024, .f32⟩
  | .hbm, ⟨21, _⟩ => ⟨S_, .i32⟩
  | .hbm, ⟨22, _⟩ => ⟨S_, .f32⟩
  | .hbm, ⟨23, _⟩ => ⟨S32x1025x1025, .f32⟩
  | .hbm, ⟨24, _⟩ => ⟨S32x1024x1024, .f32⟩
  | .hbm, ⟨25, _⟩ => ⟨S32x1024x1024, .f32⟩
  | .hbm, ⟨26, _⟩ => ⟨S_, .f32⟩
  | .hbm, ⟨27, _⟩ => ⟨S32x1024x1024, .f32⟩
  | .hbm, ⟨28, _⟩ => ⟨S32x1024x1024, .f32⟩
  | .hbm, ⟨29, _⟩ => ⟨S32x1024x1024, .f32⟩
  | .hbm, ⟨30, _⟩ => ⟨S32x1024x1024, .f32⟩
  | .hbm, ⟨31, _⟩ => ⟨S_, .f32⟩
  | .hbm, ⟨32, _⟩ => ⟨S32x1024x1024, .f32⟩
  | .hbm, ⟨33, _⟩ => ⟨S32x1024x1024, .f32⟩
  | .hbm, ⟨34, _⟩ => ⟨S32x1024x1024, .f32⟩
  | .hbm, ⟨35, _⟩ => ⟨S32x1024x1024, .f32⟩
  | .hbm, ⟨36, _⟩ => ⟨S_, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | .hbm, ⟨40, _⟩ => ⟨S_, .i32⟩
  | .hbm, ⟨41, _⟩ => ⟨S_, .f32⟩
  | .hbm, ⟨42, _⟩ => ⟨S32x1025x1025, .f32⟩
  | .hbm, ⟨43, _⟩ => ⟨S32x1024x1024, .f32⟩
  | .hbm, ⟨44, _⟩ => ⟨S32x1024x1024, .f32⟩
  | .hbm, ⟨45, _⟩ => ⟨S_, .f32⟩
  | .hbm, ⟨46, _⟩ => ⟨S32x1024x1024, .f32⟩
  | .hbm, ⟨47, _⟩ => ⟨S32x1024x1024, .f32⟩
  | .hbm, ⟨48, _⟩ => ⟨S32x1024x1024, .f32⟩
  | .hbm, ⟨49, _⟩ => ⟨S32x1024x1024, .f32⟩
  | .hbm, ⟨50, _⟩ => ⟨S_, .f32⟩
  | .hbm, ⟨51, _⟩ => ⟨S32x1024x1024, .f32⟩
  | .hbm, ⟨52, _⟩ => ⟨S32x1024x1024, .f32⟩
  | .hbm, ⟨53, _⟩ => ⟨S32x1024x1024, .f32⟩
  | .hbm, ⟨54, _⟩ => ⟨S32x1024x1024, .f32⟩
  | .hbm, ⟨55, _⟩ => ⟨S_, .f32⟩
  | .hbm, ⟨56, _⟩ => ⟨S32x1024x1024, .f32⟩
  | .hbm, ⟨57, _⟩ => ⟨S32x1024x1024, .f32⟩
  | .hbm, ⟨58, _⟩ => ⟨S32x1024x1024, .f32⟩
  | .hbm, ⟨59, _⟩ => ⟨S32x1024x1024, .f32⟩
  | .hbm, ⟨60, _⟩ => ⟨S_, .i32⟩
  | .hbm, ⟨61, _⟩ => ⟨S_, .f32⟩
  | .hbm, ⟨62, _⟩ => ⟨S32x1025x1025, .f32⟩
  | .hbm, ⟨63, _⟩ => ⟨S32x1024x1024, .f32⟩
  | .hbm, ⟨64, _⟩ => ⟨S32x1024x1024, .f32⟩
  | .hbm, ⟨65, _⟩ => ⟨S_, .f32⟩
  | .hbm, ⟨66, _⟩ => ⟨S32x1024x1024, .f32⟩
  | .hbm, ⟨67, _⟩ => ⟨S32x1024x1024, .f32⟩
  | .hbm, ⟨68, _⟩ => ⟨S32x1024x1024, .f32⟩
  | .hbm, ⟨69, _⟩ => ⟨S32x1024x1024, .f32⟩
  | .hbm, ⟨70, _⟩ => ⟨S_, .f32⟩
  | .hbm, ⟨71, _⟩ => ⟨S32x1024x1024, .f32⟩
  | .hbm, ⟨72, _⟩ => ⟨S32x1024x1024, .f32⟩
  | .hbm, ⟨73, _⟩ => ⟨S32x1024x1024, .f32⟩
  | .hbm, ⟨74, _⟩ => ⟨S32x1024x1024, .f32⟩
  | .hbm, ⟨75, _⟩ => ⟨S_, .f32⟩
  | .hbm, ⟨76, _⟩ => ⟨S32x1024x1024, .f32⟩
  | .hbm, ⟨77, _⟩ => ⟨S32x1024x1024, .f32⟩
  | .hbm, ⟨78, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_call2_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_call3_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  pads_S32x1024x1024_S32x1025x1025_000_010_010 : S32x1024x1024.Pads (![0, 0, 0] : Fin 3 → Nat) ![0, 1, 1] ![0, 0, 0] S32x1025x1025
  h_S_ : 0 < S_.numel
  slices_S32x1025x1025_S32x1024x1024_0_0_0 : S32x1025x1025.Slices ![0, 0, 0] S32x1024x1024
  slices_S32x1025x1025_S32x1024x1024_0_0_1 : S32x1025x1025.Slices ![0, 0, 1] S32x1024x1024
  bcast_S_S32x1024x1024 : S_.BroadcastsInDim S32x1024x1024 (![] : Fin 0 → Fin S32x1024x1024.rank)
  slices_S32x1025x1025_S32x1024x1024_0_1_0 : S32x1025x1025.Slices ![0, 1, 0] S32x1024x1024
  slices_S32x1025x1025_S32x1024x1024_0_1_1 : S32x1025x1025.Slices ![0, 1, 1] S32x1024x1024

variable [Facts₀]

class Facts : Prop extends Facts₀ where

variable [Facts]
-- ==== Proof.FiniteInputs.lean ====
/-
  What the precondition gives: every entry of the image is a real number. The precondition is
  `all (|x| < +∞)` evaluated to true; a conjunction over all entries that is true is true at each entry, and an
  extended real whose absolute value max(x, −x) is below +∞ is neither +∞ nor −∞.
-/
import proofs.«102980_j52261162058495_1_alg».proof.Pre_finite_inputs
import proofs.«102980_j52261162058495_1_alg».proof.Proof.Gen.Pre_finite_inputs
import Idealize.ShloMosaic.Lib.ReduceAll
import Idealize.ShloMosaic.Lib.Pipeline.Value
import Idealize.ShloMosaic.Lib.ValueIdx

noncomputable section

namespace Cert.Stencil

open Idealize.ShloMosaic Idealize.ShloMosaic.ValueIdx

/-- The word of +∞. -/
theorem ofBits_inf : Ideal.ofBits .f32 0x7F800000#32 = (⊤ : EReal) := by
  simp [Ideal.ofBits, Ideal.ieee]

/-- An extended real with max(a, −a) < +∞ is a real. -/
theorem real_of_abs_lt_top (a : EReal) (h : Ideal.cmp .olt (max a (-a)) ⊤ = 1#1) : ∃ r : ℝ, a = (r : EReal) := by
  have h' : max a (-a) < ⊤ := by
    unfold Ideal.cmp at h
    by_contra hc
    simp [hc] at h
  induction a using EReal.rec with
  | bot => simp at h'
  | coe r => exact ⟨r, rfl⟩
  | top => simp at h'

instance : Subsingleton Cert.Pre_finite_inputs.S_.Idx := ⟨fun _ _ => funext fun d => d.elim0⟩

open Cert.Pre_finite_inputs Cert.Pre_finite_inputs.Facts in
/-- Under the precondition every entry of the image is a real number. -/
theorem real_of_pre (x : FVec Ideal Cert.Pre_finite_inputs.S32x1024x1024 .f32)
    (h : Cert.Pre_finite_inputs.fn (F := Ideal) x = fun _ => 1#1) (k : Cert.Pre_finite_inputs.S32x1024x1024.Idx) :
    ∃ r : ℝ, x k = (r : EReal) := by
  have h0 := congrFun h ix0
  dsimp only [Cert.Pre_finite_inputs.fn] at h0
  have hk := Host.reduce_andi_all _ _ _ _ _ h0 k
  have hb : broadcastInDim Cert.Pre_finite_inputs.S32x1024x1024 ![] bcast_S_S32x1024x1024
      (constant (F := Ideal) Cert.Pre_finite_inputs.S_ .f32 0x7F800000#32) k = (⊤ : EReal) :=
    (broadcastInDim_apply _ _ _ k ix0 (fun a => a.elim0)).trans ofBits_inf
  have hk' : Ideal.cmp .olt (max (x k) (-(x k)))
      (broadcastInDim Cert.Pre_finite_inputs.S32x1024x1024 ![] bcast_S_S32x1024x1024
        (constant (F := Ideal) Cert.Pre_finite_inputs.S_ .f32 0x7F800000#32) k) = 1#1 := hk
  rw [hb] at hk'
  exact real_of_abs_lt_top (x k) hk'

end Cert.Stencil

end
-- ==== Proof.StencilAlgebra.lean ====
/-
  The mathematics of the certificate, with no program in sight.

  An image slice is extended by zero to a function on the quarter-plane ℕ × ℕ (`plane`), so that a read one row
  below the last row, or one column right of the last column, is a read of the zero padding. On such functions:

  * `stencil h q` is one pass of the 2×2 stencil  f(i,j) + h·f(i,j+1) + h·f(i+1,j) + q·f(i+1,j+1);
  * `rowPass` and `colPass` are the 5-tap passes along a row and along a column;
  * `clip` cuts a function back to the box [0,1024)², which is what storing an intermediate image and padding
    it again with zeros does.

  With A the shift by one row and B the shift by one column, the stencil with h = 1/2, q = 1/4 is
  (1 + A/2)(1 + B/2); A and B commute, so its fourth power is (1 + A/2)⁴ (1 + B/2)⁴, and
  (1 + X/2)⁴ = 1 + 2X + (3/2)X² + (1/2)X³ + (1/16)X⁴: the two 5-tap passes with the binomial coefficients
  C(4,k)/2ᵏ. That identity (`stencil4_eq`) is a polynomial identity in the 25 values f(i+a, j+b), over ℝ.
  A function that vanishes off the box keeps doing so under each pass, because the passes only look down and to
  the right (`supp_stencil`, `supp_rowPass`): every clip in either chain is the identity (`clip_of_supp`).
  Distributivity is what the identity uses, and it fails at the infinities of the extended reals, so the identity is
  stated over ℝ and carried to arrays of FINITE extended reals by pushing the coercion through each operator
  (`stencil_coe`, `rowPass_coe`, `colPass_coe`, `clip_coe`, `plane_coe`).
-/
import Idealize.ShloMosaic.PureOps.Ideal
import Idealize.ShloMosaic.Lib.ValueIdx

noncomputable section

namespace Cert.Stencil

open Idealize.ShloMosaic Idealize.ShloMosaic.ValueIdx

/-! ## The operators, over any carrier with 0, + and · -/

section Operators
variable {α : Type} [Zero α] [Add α] [Mul α]

/-- One pass of the 2×2 stencil with weights 1, h, h, q, summed in the order the host program sums them. -/
def stencil (h q : α) (f : ℕ → ℕ → α) : ℕ → ℕ → α :=
  fun i j => f i j + h * f i (j + 1) + h * f (i + 1) j + q * f (i + 1) (j + 1)

/-- The 5-tap pass along a row: taps at columns j … j+4. -/
def rowPass (c0 c1 c2 c3 c4 : α) (f : ℕ → ℕ → α) : ℕ → ℕ → α :=
  fun i j => c0 * f i j + c1 * f i (j + 1) + c2 * f i (j + 2) + c3 * f i (j + 3) + c4 * f i (j + 4)

/-- The 5-tap pass along a column: taps at rows i … i+4. -/
def colPass (c0 c1 c2 c3 c4 : α) (f : ℕ → ℕ → α) : ℕ → ℕ → α :=
  fun i j => c0 * f i j + c1 * f (i + 1) j + c2 * f (i + 2) j + c3 * f (i + 3) j + c4 * f (i + 4) j

/-- A function cut back to the box [0,1024)²: zero outside it. -/
def clip (f : ℕ → ℕ → α) : ℕ → ℕ → α :=
  fun i j => if i < 1024 ∧ j < 1024 then f i j else 0

/-- Slice `n` of an image of `N` slices of 1024 × 1024, extended by zero to the quarter-plane. -/
def plane {N : ℕ} (y : (⟨3, ![N, 1024, 1024]⟩ : Shape).Idx → α) (n : Fin N) : ℕ → ℕ → α :=
  fun i j => if h : i < 1024 ∧ j < 1024 then y (ix3 n ⟨i, h.1⟩ ⟨j, h.2⟩) else 0

/-- Inside the box the extension reads the image. -/
theorem plane_apply {N : ℕ} (y : (⟨3, ![N, 1024, 1024]⟩ : Shape).Idx → α) (n : Fin N) (i j : Fin 1024) :
    plane y n i.val j.val = y (ix3 n i j) := by
  unfold plane
  rw [dif_pos ⟨i.isLt, j.isLt⟩]

/-- Off the box the extension is zero. -/
theorem plane_of_not {N : ℕ} (y : (⟨3, ![N, 1024, 1024]⟩ : Shape).Idx → α) (n : Fin N) {i j : ℕ}
    (h : ¬(i < 1024 ∧ j < 1024)) : plane y n i j = 0 := by
  unfold plane
  rw [dif_neg h]

end Operators

/-! ## The identity over ℝ -/

/-- (1 + A/2)⁴ (1 + B/2)⁴, expanded: four stencil passes are the row pass followed by the column pass with the
    binomial coefficients 1, 2, 3/2, 1/2, 1/16. A polynomial identity in the 25 values `f (i+a) (j+b)`. -/
theorem stencil4_eq (f : ℕ → ℕ → ℝ) (i j : ℕ) :
    stencil (1/2) (1/4) (stencil (1/2) (1/4) (stencil (1/2) (1/4) (stencil (1/2) (1/4) f))) i j
      = colPass 1 2 (3/2) (1/2) (1/16) (rowPass 1 2 (3/2) (1/2) (1/16) f) i j := by
  simp only [stencil, rowPass, colPass, Nat.add_assoc, Nat.reduceAdd]
  ring

/-- A function that vanishes off the box [0,1024)². -/
def Supp (f : ℕ → ℕ → ℝ) : Prop := ∀ i j, ¬(i < 1024 ∧ j < 1024) → f i j = 0

theorem clip_of_supp {f : ℕ → ℕ → ℝ} (hf : Supp f) : clip f = f := by
  funext i j
  unfold clip
  split_ifs with h
  · rfl
  · exact (hf i j h).symm

/-- The stencil only looks down and to the right: off the box it reads only values off the box. -/
theorem supp_stencil {f : ℕ → ℕ → ℝ} (hf : Supp f) (h q : ℝ) : Supp (stencil h q f) := by
  intro i j hij
  unfold stencil
  rw [hf i j hij, hf i (j + 1) (by omega), hf (i + 1) j (by omega), hf (i + 1) (j + 1) (by omega)]
  simp

/-- So does the row pass. -/
theorem supp_rowPass {f : ℕ → ℕ → ℝ} (hf : Supp f) (c0 c1 c2 c3 c4 : ℝ) : Supp (rowPass c0 c1 c2 c3 c4 f) := by
  intro i j hij
  unfold rowPass
  rw [hf i j hij, hf i (j + 1) (by omega), hf i (j + 2) (by omega), hf i (j + 3) (by omega), hf i (j + 4) (by omega)]
  simp

theorem supp_plane {N : ℕ} (y : (⟨3, ![N, 1024, 1024]⟩ : Shape).Idx → ℝ) (n : Fin N) : Supp (plane y n) :=
  fun _ _ h => plane_of_not y n h

/-- THE LAW. On a function that vanishes off the box, four stencil passes, each intermediate cut back to the box,
    are the row pass, cut back to the box, then the column pass. -/
theorem four_passes_eq {f : ℕ → ℕ → ℝ} (hf : Supp f) (i j : ℕ) :
    stencil (1/2) (1/4) (clip (stencil (1/2) (1/4) (clip (stencil (1/2) (1/4) (clip (stencil (1/2) (1/4) f)))))) i j
      = colPass 1 2 (3/2) (1/2) (1/16) (clip (rowPass 1 2 (3/2) (1/2) (1/16) f)) i j := by
  have h1 := supp_stencil hf (1/2) (1/4)
  have h2 := supp_stencil h1 (1/2) (1/4)
  have h3 := supp_stencil h2 (1/2) (1/4)
  rw [clip_of_supp h1, clip_of_supp h2, clip_of_supp h3, clip_of_supp (supp_rowPass hf _ _ _ _ _)]
  exact stencil4_eq f i j

/-! ## Finite extended reals: the coercion goes through every operator -/

theorem stencil_coe (h q : ℝ) (f : ℕ → ℕ → ℝ) :
    stencil (h : EReal) (q : EReal) (fun i j => ((f i j : ℝ) : EReal)) = fun i j => ((stencil h q f i j : ℝ) : EReal) := by
  funext i j
  simp only [stencil, EReal.coe_add, EReal.coe_mul]

theorem rowPass_coe (c0 c1 c2 c3 c4 : ℝ) (f : ℕ → ℕ → ℝ) :
    rowPass (c0 : EReal) (c1 : EReal) (c2 : EReal) (c3 : EReal) (c4 : EReal) (fun i j => ((f i j : ℝ) : EReal))
      = fun i j => ((rowPass c0 c1 c2 c3 c4 f i j : ℝ) : EReal) := by
  funext i j
  simp only [rowPass, EReal.coe_add, EReal.coe_mul]

theorem colPass_coe (c0 c1 c2 c3 c4 : ℝ) (f : ℕ → ℕ → ℝ) :
    colPass (c0 : EReal) (c1 : EReal) (c2 : EReal) (c3 : EReal) (c4 : EReal) (fun i j => ((f i j : ℝ) : EReal))
      = fun i j => ((colPass c0 c1 c2 c3 c4 f i j : ℝ) : EReal) := by
  funext i j
  simp only [colPass, EReal.coe_add, EReal.coe_mul]

theorem clip_coe (f : ℕ → ℕ → ℝ) :
    clip (fun i j => ((f i j : ℝ) : EReal)) = fun i j => ((clip f i j : ℝ) : EReal) := by
  funext i j
  unfold clip
  split_ifs
  · rfl
  · exact EReal.coe_zero.symm

theorem plane_coe {N : ℕ} (y : (⟨3, ![N, 1024, 1024]⟩ : Shape).Idx → ℝ) (n : Fin N) :
    plane (fun k => ((y k : ℝ) : EReal)) n = fun i j => ((plane y n i j : ℝ) : EReal) := by
  funext i j
  unfold plane
  split_ifs
  · rfl
  · exact EReal.coe_zero.symm

/-- THE LAW ON FINITE EXTENDED REALS. For an image slice of finite values, the host's chain (four stencil passes
    with weights 1/2 and 1/4, every intermediate stored and zero-padded again) and the kernel's chain (the row pass,
    stored, then the column pass, coefficients 1, 2, 3/2, 1/2, 1/16) agree at every point. -/
theorem four_passes_eq_ereal {N : ℕ} (y : (⟨3, ![N, 1024, 1024]⟩ : Shape).Idx → ℝ) (n : Fin N) (i j : ℕ) :
    stencil (((1/2 : ℝ)) : EReal) ((1/4 : ℝ) : EReal) (clip (stencil ((1/2 : ℝ) : EReal) ((1/4 : ℝ) : EReal)
        (clip (stencil ((1/2 : ℝ) : EReal) ((1/4 : ℝ) : EReal) (clip (stencil ((1/2 : ℝ) : EReal) ((1/4 : ℝ) : EReal)
          (plane (fun k => ((y k : ℝ) : EReal)) n))))))) i j
      = colPass ((1 : ℝ) : EReal) ((2 : ℝ) : EReal) ((3/2 : ℝ) : EReal) ((1/2 : ℝ) : EReal) ((1/16 : ℝ) : EReal)
          (clip (rowPass ((1 : ℝ) : EReal) ((2 : ℝ) : EReal) ((3/2 : ℝ) : EReal) ((1/2 : ℝ) : EReal) ((1/16 : ℝ) : EReal)
            (plane (fun k => ((y k : ℝ) : EReal)) n))) i j := by
  rw [plane_coe]
  simp only [stencil_coe, clip_coe, rowPass_coe, colPass_coe]
  exact congrArg _ (four_passes_eq (supp_plane y n) i j)

end Cert.Stencil

end
-- ==== Proof.KernelTaps.lean ====
/-
  One tap of the kernel's 5-tap passes, read at an index, with no program in sight. The kernel shifts a block of one
  slice, 1024 × 1024, by k places along an axis by ROTATING it by 1024 − k — entry j of the rotation is entry
  (j + k) mod 1024 of the block — and then masking with "coordinate < 1024 − k", which keeps exactly the entries
  that did not come around the end and puts zero elsewhere. Read at (0, i, j) this is the block's extension by zero to
  the quarter-plane at (i, j + k) for the column axis (`tap_col`) and at (i + k, j) for the row axis (`tap_row`):
  where j + k < 1024 the rotation has not wrapped and the mask is set; where j + k ≥ 1024 the mask is clear and the
  extension is zero too.
-/
import Idealize.ShloMosaic.Lib.KernelVsHost
import Idealize.ShloMosaic.Lib.Affine
import proofs.«102980_j52261162058495_1_alg».proof.Proof.StencilAlgebra

noncomputable section

namespace Cert.Stencil

open Idealize.ShloMosaic Idealize.ShloMosaic.ValueIdx

/-- One slice as a block. -/
abbrev Blk : Shape := ⟨3, ![1, 1024, 1024]⟩

/-- A coordinate below 1024, as a 32-bit word read signed, is itself. -/
theorem toInt_coord (j : ℕ) (hj : j < 1024) : (BitVec.ofNat 32 j).toInt = (j : ℤ) := by
  have h1 : (BitVec.ofNat 32 j).toNat = j := by
    rw [BitVec.toNat_ofNat]; exact Nat.mod_eq_of_lt (by omega)
  rw [BitVec.toInt_eq_toNat_cond, h1, if_pos (by omega)]

/-- A tap k columns to the right: rotate along the columns by 1024 − k, keep the columns below 1024 − k. -/
theorem tap_col (s : BitVec 32) (k : ℕ) (hk0 : 0 < k) (hk : k ≤ 1024) (hn : s.toNat = 1024 - k)
    (hs : s.toInt = ((1024 - k : ℕ) : ℤ)) (hr : Blk.Rotates 2 none) (hi : Blk.Iotas .tc 32 [2])
    (v : Blk.Idx → EReal) (z : EReal) (hz : z = 0) (i j : Fin 1024) :
    select (cmpi .slt (iota .tc Blk 32 [2] hi) (broadcast Blk s)) (dynamicRotate 2 s none v hr) (broadcast Blk z) (ix3 0 i j)
      = plane v 0 i.val (j.val + k) := by
  rw [select_apply]
  show Scalar.select (IntOp.cmpi .slt (iota .tc Blk 32 [2] hi (ix3 0 i j)) s) _ z = _
  rw [iota_single_apply]
  unfold Scalar.select
  have hj := j.isLt
  by_cases h : j.val + k < 1024
  · have hc : IntOp.cmpi .slt (BitVec.ofNat 32 j.val) s = 1#1 :=
      IntOp.cmpi_slt.2 (by rw [toInt_coord j.val hj, hs]; omega)
    rw [show plane v 0 i.val (j.val + k) = v (ix3 0 i ⟨j.val + k, h⟩) from plane_apply v 0 i ⟨j.val + k, h⟩]
    refine (if_pos hc).trans ?_
    exact dynamicRotate_apply 2 s v hr (ix3 0 i j) (ix3 0 i ⟨j.val + k, h⟩) (fun b => match b with
      | ⟨0, _⟩ => (if_neg (fun hb => absurd (congrArg Fin.val hb) (by decide : ¬ ((0 : ℕ) = 2)))).symm
      | ⟨1, _⟩ => (if_neg (fun hb => absurd (congrArg Fin.val hb) (by decide : ¬ ((1 : ℕ) = 2)))).symm
      | ⟨2, _⟩ => by
          refine Eq.trans ?_ (if_pos (by exact Fin.ext rfl)).symm
          show j.val + k = (j.val + 1024 - s.toNat % 1024) % 1024
          rw [hn]; omega)
  · have hc : ¬ IntOp.cmpi .slt (BitVec.ofNat 32 j.val) s = 1#1 := fun hc => by
      have := IntOp.cmpi_slt.1 hc
      rw [toInt_coord j.val hj, hs] at this
      omega
    rw [plane_of_not v 0 (fun hh => h hh.2)]
    exact (if_neg hc).trans hz

/-- A tap k rows down: rotate along the rows by 1024 − k, keep the rows below 1024 − k. -/
theorem tap_row (s : BitVec 32) (k : ℕ) (hk0 : 0 < k) (hk : k ≤ 1024) (hn : s.toNat = 1024 - k)
    (hs : s.toInt = ((1024 - k : ℕ) : ℤ)) (hr : Blk.Rotates 1 none) (hi : Blk.Iotas .tc 32 [1])
    (v : Blk.Idx → EReal) (z : EReal) (hz : z = 0) (i j : Fin 1024) :
    select (cmpi .slt (iota .tc Blk 32 [1] hi) (broadcast Blk s)) (dynamicRotate 1 s none v hr) (broadcast Blk z) (ix3 0 i j)
      = plane v 0 (i.val + k) j.val := by
  rw [select_apply]
  show Scalar.select (IntOp.cmpi .slt (iota .tc Blk 32 [1] hi (ix3 0 i j)) s) _ z = _
  rw [iota_single_apply]
  unfold Scalar.select
  have hi' := i.isLt
  by_cases h : i.val + k < 1024
  · have hc : IntOp.cmpi .slt (BitVec.ofNat 32 i.val) s = 1#1 :=
      IntOp.cmpi_slt.2 (by rw [toInt_coord i.val hi', hs]; omega)
    rw [show plane v 0 (i.val + k) j.val = v (ix3 0 ⟨i.val + k, h⟩ j) from plane_apply v 0 ⟨i.val + k, h⟩ j]
    refine (if_pos hc).trans ?_
    exact dynamicRotate_apply 1 s v hr (ix3 0 i j) (ix3 0 ⟨i.val + k, h⟩ j) (fun b => match b with
      | ⟨0, _⟩ => (if_neg (fun hb => absurd (congrArg Fin.val hb) (by decide : ¬ ((0 : ℕ) = 1)))).symm
      | ⟨1, _⟩ => by
          refine Eq.trans ?_ (if_pos (by exact Fin.ext rfl)).symm
          show i.val + k = (i.val + 1024 - s.toNat % 1024) % 1024
          rw [hn]; omega
      | ⟨2, _⟩ => (if_neg (fun hb => absurd (congrArg Fin.val hb) (by decide : ¬ ((2 : ℕ) = 1)))).symm)
  · have hc : ¬ IntOp.cmpi .slt (BitVec.ofNat 32 i.val) s = 1#1 := fun hc => by
      have := IntOp.cmpi_slt.1 hc
      rw [toInt_coord i.val hi', hs] at this
      omega
    rw [plane_of_not v 0 (fun hh => h hh.1)]
    exact (if_neg hc).trans hz

end Cert.Stencil

end
-- ==== Proof.Consts.lean ====
/-
  The float constants the two programs spell, as the extended reals their bit patterns denote at the ideal
  instance. The host program weighs with 1/2 and 1/4; the kernel with 1, 2, 3/2, 1/2 and 1/16, the binomial
  coefficients C(4,k)/2ᵏ. All are dyadic rationals, so each pattern denotes its number exactly.
-/
import Idealize.ShloMosaic.PureOps.Ideal

noncomputable section

namespace Cert.Stencil.Consts

open Idealize.ShloMosaic

/-- `1.0`. -/
theorem ofBits_one : Ideal.ofBits .f32 0x3F800000#32 = ((1 : ℝ) : EReal) := by
  simp [Ideal.ofBits, Ideal.ieee, -EReal.coe_mul]; norm_num
/-- `2.0`. -/
theorem ofBits_two : Ideal.ofBits .f32 0x40000000#32 = ((2 : ℝ) : EReal) := by
  simp [Ideal.ofBits, Ideal.ieee, -EReal.coe_mul]; norm_num
/-- `1.5`. -/
theorem ofBits_three_halves : Ideal.ofBits .f32 0x3FC00000#32 = ((3/2 : ℝ) : EReal) := by
  simp [Ideal.ofBits, Ideal.ieee, -EReal.coe_mul]; norm_num
/-- `0.5`. -/
theorem ofBits_half : Ideal.ofBits .f32 0x3F000000#32 = ((1/2 : ℝ) : EReal) := by
  simp [Ideal.ofBits, Ideal.ieee, -EReal.coe_mul]; norm_num
/-- `0.25`. -/
theorem ofBits_quarter : Ideal.ofBits .f32 0x3E800000#32 = ((1/4 : ℝ) : EReal) := by
  simp [Ideal.ofBits, Ideal.ieee, -EReal.coe_mul]; norm_num
/-- `0.0625`. -/
theorem ofBits_sixteenth : Ideal.ofBits .f32 0x3D800000#32 = ((1/16 : ℝ) : EReal) := by
  simp [Ideal.ofBits, Ideal.ieee, -EReal.coe_mul]; norm_num

end Cert.Stencil.Consts

end
-- ==== Proof.KernelBlock.lean ====
/-
  What the kernel's body computes from one block, read at an index. The body makes two passes over a block of one
  slice. The first (`k0_pay1`) is the 5-tap pass along each row: the block itself times 1, plus the block shifted by
  1, 2, 3, 4 columns — each shift a rotation masked back to zero where it wrapped — times 2, 3/2, 1/2, 1/16, summed left
  to right. The second (`k0_pay2`) does the same along each column, over the first pass's result. Read at (0, i, j)
  each is the corresponding pass over its operand's extension by zero to the quarter-plane (`rowPass_block`,
  `colPass_block`); the first pass's result is a block again, so its extension is the row pass CLIPPED to the box,
  and the body's result at (0, i, j) is the column pass over the clipped row pass (`body_apply`).
-/
import proofs.«102980_j52261162058495_1_alg».proof.Proof.Gen.KernelIdeal.Skeleton
import proofs.«102980_j52261162058495_1_alg».proof.Proof.KernelTaps
import proofs.«102980_j52261162058495_1_alg».proof.Proof.Consts

noncomputable section

namespace Cert.Stencil

open Idealize.ShloMosaic Idealize.ShloMosaic.ValueIdx Cert.KernelIdeal Cert.KernelIdeal.Gen

/-- The zero the masks put where a rotation wrapped. -/
theorem zero_word : Scalar.ofBits (F := Ideal) .f32 0x00000000#32 = (0 : EReal) := Ideal.ofBits_zero_f32

/-- THE ROW PASS: the body's first payload at (0, i, j). -/
theorem rowPass_block (v : Blk.Idx → EReal) (i j : Fin 1024) :
    k0_pay1 (F := Ideal) v (ix3 0 i j)
      = rowPass (Ideal.ofBits .f32 0x3F800000#32) (Ideal.ofBits .f32 0x40000000#32) (Ideal.ofBits .f32 0x3FC00000#32)
          (Ideal.ofBits .f32 0x3F000000#32) (Ideal.ofBits .f32 0x3D800000#32) (plane v 0) i.val j.val := by
  unfold k0_pay1 rowPass
  dsimp only
  rw [addf_apply, addf_apply, addf_apply, addf_apply, mulf_apply, mulf_apply, mulf_apply, mulf_apply, mulf_apply,
    tap_col 1023#32 1 (by omega) (by omega) (by decide) (by decide) rotates_S1x1024x1024_d2 iota_S1x1024x1024_d2_w32 v _ zero_word,
    tap_col 1022#32 2 (by omega) (by omega) (by decide) (by decide) rotates_S1x1024x1024_d2 iota_S1x1024x1024_d2_w32 v _ zero_word,
    tap_col 1021#32 3 (by omega) (by omega) (by decide) (by decide) rotates_S1x1024x1024_d2 iota_S1x1024x1024_d2_w32 v _ zero_word,
    tap_col 1020#32 4 (by omega) (by omega) (by decide) (by decide) rotates_S1x1024x1024_d2 iota_S1x1024x1024_d2_w32 v _ zero_word,
    plane_apply v 0 i j]
  rfl

/-- THE COLUMN PASS: the body's second payload at (0, i, j). -/
theorem colPass_block (v : Blk.Idx → EReal) (i j : Fin 1024) :
    k0_pay2 (F := Ideal) v (ix3 0 i j)
      = colPass (Ideal.ofBits .f32 0x3F800000#32) (Ideal.ofBits .f32 0x40000000#32) (Ideal.ofBits .f32 0x3FC00000#32)
          (Ideal.ofBits .f32 0x3F000000#32) (Ideal.ofBits .f32 0x3D800000#32) (plane v 0) i.val j.val := by
  unfold k0_pay2 colPass
  dsimp only
  rw [addf_apply, addf_apply, addf_apply, addf_apply, mulf_apply, mulf_apply, mulf_apply, mulf_apply, mulf_apply,
    tap_row 1023#32 1 (by omega) (by omega) (by decide) (by decide) rotates_S1x1024x1024_d1 iota_S1x1024x1024_d1_w32 v _ zero_word,
    tap_row 1022#32 2 (by omega) (by omega) (by decide) (by decide) rotates_S1x1024x1024_d1 iota_S1x1024x1024_d1_w32 v _ zero_word,
    tap_row 1021#32 3 (by omega) (by omega) (by decide) (by decide) rotates_S1x1024x1024_d1 iota_S1x1024x1024_d1_w32 v _ zero_word,
    tap_row 1020#32 4 (by omega) (by omega) (by decide) (by decide) rotates_S1x1024x1024_d1 iota_S1x1024x1024_d1_w32 v _ zero_word,
    plane_apply v 0 i j]
  rfl

/-- The first pass's result is a block: extended by zero again, it is the row pass clipped to the box. -/
theorem plane_rowPass_block (v : Blk.Idx → EReal) :
    plane (k0_pay1 (F := Ideal) v) 0
      = clip (rowPass (Ideal.ofBits .f32 0x3F800000#32) (Ideal.ofBits .f32 0x40000000#32) (Ideal.ofBits .f32 0x3FC00000#32)
          (Ideal.ofBits .f32 0x3F000000#32) (Ideal.ofBits .f32 0x3D800000#32) (plane v 0)) := by
  funext i j
  unfold clip
  by_cases h : i < 1024 ∧ j < 1024
  · rw [if_pos h]
    exact (plane_apply _ 0 ⟨i, h.1⟩ ⟨j, h.2⟩).trans (rowPass_block v ⟨i, h.1⟩ ⟨j, h.2⟩)
  · rw [if_neg h]
    exact plane_of_not _ 0 h

/-- THE BODY AT AN INDEX: the column pass over the clipped row pass of the block's extension, with the
    coefficients as the kernel spells them. -/
theorem body_apply (v : Blk.Idx → EReal) (i j : Fin 1024) :
    k0_pay2 (F := Ideal) (k0_pay1 (F := Ideal) v) (ix3 0 i j)
      = colPass (Ideal.ofBits .f32 0x3F800000#32) (Ideal.ofBits .f32 0x40000000#32) (Ideal.ofBits .f32 0x3FC00000#32)
          (Ideal.ofBits .f32 0x3F000000#32) (Ideal.ofBits .f32 0x3D800000#32)
          (clip (rowPass (Ideal.ofBits .f32 0x3F800000#32) (Ideal.ofBits .f32 0x40000000#32) (Ideal.ofBits .f32 0x3FC00000#32)
            (Ideal.ofBits .f32 0x3F000000#32) (Ideal.ofBits .f32 0x3D800000#32) (plane v 0))) i.val j.val := by
  rw [colPass_block, plane_rowPass_block]

end Cert.Stencil

end
-- ==== Proof.KernelArray.lean ====
/-
  From blocks to the whole array. The kernel runs once per slice: grid point t stages slice t of the argument, the body
  computes from that block alone, and the result is written back as slice t of the output. So the output array after
  the run is ONE function of the argument array (`kernelImage`): at (n, i, j), the column pass over the clipped row pass
  of slice n's extension by zero. Point t writes back block t of that function (`flushed_eq`: the body at an index, and
  the block of the argument it was given is slice t); every index (n, i, j) lies in point n's block (`cover`); hence the
  array is that function everywhere (`final`), and the kernel's run ends with it in the result (`run`).
-/
import proofs.«102980_j52261162058495_1_alg».proof.Proof.Gen.KernelIdeal.Value
import proofs.«102980_j52261162058495_1_alg».proof.Proof.KernelBlock

noncomputable section

namespace Cert.Stencil

open Cert.KernelIdeal Cert.KernelIdeal.Gen Idealize.ShloMosaic Idealize.ShloMosaic.TcCoe Idealize.SL.Sem
open Idealize.ShloMosaic.ValueIdx
open Idealize.ShloMosaic.Pipeline (Dat)

/-- The kernel's result as one function of the argument image: at (n, i, j) the column pass over the clipped row
    pass of slice n, coefficients as the kernel spells them. -/
def kernelImage (x : S32x1024x1024.Idx → EReal) : S32x1024x1024.Idx → EReal :=
  fun k => colPass (Ideal.ofBits .f32 0x3F800000#32) (Ideal.ofBits .f32 0x40000000#32) (Ideal.ofBits .f32 0x3FC00000#32)
      (Ideal.ofBits .f32 0x3F000000#32) (Ideal.ofBits .f32 0x3D800000#32)
      (clip (rowPass (Ideal.ofBits .f32 0x3F800000#32) (Ideal.ofBits .f32 0x40000000#32) (Ideal.ofBits .f32 0x3FC00000#32)
        (Ideal.ofBits .f32 0x3F000000#32) (Ideal.ofBits .f32 0x3D800000#32) (plane x (k 0)))) (k 1).val (k 2).val

variable (m : (ℓ : Loc nD τ sig) → Buf (Elt Ideal) ℓ) (ρ : Dev nD → PrngReg)

theorem origin3 : (![0, 0, 0] : Fin 3 → Nat) = fun _ => 0 := funext fun a => by fin_cases a <;> rfl

/-- The block of the argument that point t is given, and the argument array as the region finds it, at their
    literal types. -/
abbrev argBlock (c : Dev nD) (t : Fin cfg0.N) : Blk.Idx → EReal := iblk m c 0 t
abbrev argArray (c : Dev nD) : S32x1024x1024.Idx → EReal := V m c main_arg0

/-- The printed index maps, decided over the 32 grid points: point t's block index is (t, 0, 0), for the argument's
    window and for the result's. -/
theorem index_maps : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- WHAT POINT t WRITES BACK is block t of the kernel's image of the argument array. -/
theorem flushed_eq (c : Dev nD) (t : Fin cfg0.N) :
    (dats m 0 c).flushed 1 t = ((cfg0.win 1).blk t).view.read (Elt Ideal) (kernelImage (argArray m c)) := by
  rw [Cert.KernelIdeal.Value.flushed1]
  unfold out0_1
  rw [View.canon_unit_zero origin3]
  simp only [View.ld_unit_zero (S := S1x1024x1024) origin3]
  obtain ⟨e0, e1, e2, e3, e4, e5⟩ := index_maps t
  funext j
  have hj0 : (j 0).val < 1 := (j 0).isLt
  obtain ⟨p, q, rfl⟩ : ∃ (p q : Fin 1024), j = ix3 (0 : Fin 1) p q :=
    ⟨j 1, j 2, (@eq_ix3 1 1024 1024 j).trans
      (congrArg (fun a : Fin 1 => ix3 a (j 1) (j 2)) (Fin.ext (by show (j 0).val = 0; omega)))⟩
  show k0_pay2 (F := Ideal) (k0_pay1 (F := Ideal) (argBlock m c t)) (ix3 0 p q)
    = kernelImage (argArray m c) (((cfg0.win 1).blk t).view.emb (ix3 0 p q))
  refine (body_apply (argBlock m c t) p q).trans ?_
  have hemb : ((cfg0.win 1).blk t).view.emb (ix3 (0 : Fin 1) p q) = ix3 (⟨t.val, t.isLt⟩ : Fin 32) p q := by
    funext a; apply Fin.ext
    match a with
    | ⟨0, _⟩ => show win0_1.index t (0 : Fin 3) * 1 + 1 * 0 = t.val; omega
    | ⟨1, _⟩ => show win0_1.index t (1 : Fin 3) * 1024 + 1 * p.val = p.val; omega
    | ⟨2, _⟩ => show win0_1.index t (2 : Fin 3) * 1024 + 1 * q.val = q.val; omega
  have hpl : plane (argBlock m c t) (0 : Fin 1) = plane (argArray m c) (⟨t.val, t.isLt⟩ : Fin 32) := by
    funext i j
    unfold plane
    by_cases h : i < 1024 ∧ j < 1024
    · rw [dif_pos h, dif_pos h]
      show argArray m c (((cfg0.win 0).blk t).view.emb (ix3 (0 : Fin 1) (⟨i, h.1⟩ : Fin 1024) (⟨j, h.2⟩ : Fin 1024))) = _
      refine congrArg _ (funext fun a => Fin.ext ?_)
      match a with
      | ⟨0, _⟩ => show win0_0.index t (0 : Fin 3) * 1 + 1 * 0 = t.val; omega
      | ⟨1, _⟩ => show win0_0.index t (1 : Fin 3) * 1024 + 1 * i = i; omega
      | ⟨2, _⟩ => show win0_0.index t (2 : Fin 3) * 1024 + 1 * j = j; omega
    · rw [dif_neg h, dif_neg h]
  rw [hemb, hpl]
  rfl

/-- An index of the array is in point t's block iff each coordinate is in the block's range on its axis. -/
theorem mem_blk (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- Every index (n, i, j) of the output lies in the block of point n, which writes back. -/
theorem cover (i : S32x1024x1024.Idx) :
    ∃ t : Fin cfg0.N, (cfg0.win 1).flush t = true ∧ i ∈ ((cfg0.win 1).blk t).view.set := by
  refine ⟨⟨(i 0).val, (i 0).isLt⟩, flush0_1 _, ?_⟩
  rw [mem_blk]
  obtain ⟨-, -, -, e3, e4, e5⟩ := index_maps ⟨(i 0).val, (i 0).isLt⟩
  have e3' : win0_1.index ⟨(i 0).val, (i 0).isLt⟩ (0 : Fin 3) = (i 0).val := e3
  have h1 : (i 1).val < 1024 := (i 1).isLt
  have h2 : (i 2).val < 1024 := (i 2).isLt
  intro a
  match a with
  | ⟨0, _⟩ =>
    show win0_1.index ⟨(i 0).val, (i 0).isLt⟩ (0 : Fin 3) * 1 ≤ (i 0).val
      ∧ (i 0).val < win0_1.index ⟨(i 0).val, (i 0).isLt⟩ (0 : Fin 3) * 1 + 1
    omega
  | ⟨1, _⟩ =>
    show win0_1.index ⟨(i 0).val, (i 0).isLt⟩ (1 : Fin 3) * 1024 ≤ (i 1).val
      ∧ (i 1).val < win0_1.index ⟨(i 0).val, (i 0).isLt⟩ (1 : Fin 3) * 1024 + 1024
    omega
  | ⟨2, _⟩ =>
    show win0_1.index ⟨(i 0).val, (i 0).isLt⟩ (2 : Fin 3) * 1024 ≤ (i 2).val
      ∧ (i 2).val < win0_1.index ⟨(i 0).val, (i 0).isLt⟩ (2 : Fin 3) * 1024 + 1024
    omega

/-- THE OUTPUT ARRAY after the run is the kernel's image of the argument array. -/
theorem final (c : Dev nD) :
    (dats m 0 c).arrAt 1 cfg0.N = kernelImage (m ((c : Thread nD τ).loc main_arg0)) :=
  (dats m 0 c).arrAt_eq_of_cover 1 (kernelImage (argArray m c)) (fun t _ => flushed_eq m c t) cover

/-- The kernel's run, read: it ends with the kernel's image of the argument in the result, the argument unchanged. -/
theorem kernel_run : θ_run defs (onTc (τ := τ) (main (F := Ideal))) ⟨m, fun _ => 0, ρ⟩ fun r => ∀ c : Dev nD,
      r.2.mem ((c : Thread nD τ).loc main_v0) = kernelImage (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.Stencil

end
-- ==== Proof.HostStage.lean ====
/-
  One stage of the host program, read at an index, with no program in sight: an image of 32 slices of
  1024 × 1024 is padded by one zero row below and one zero column to the right, four shifted copies are cut out
  of the padded image, and they are summed with weights 1, 1/2, 1/2, 1/4. Read at (n, i, j) that is one stencil pass
  over slice n extended by zero to the quarter-plane (`hostStage_apply`): the padded image at (n, i', j') IS that
  extension (`padded_apply`: inside the image it reads the image, on the added row or column the padding value, the
  integer zero converted, which is the real zero), and the copy cut at offsets (o₁, o₂) reads it at (i + o₁, j + o₂).
  Storing a stage's result and extending it again is the clip to the box (`plane_hostStage`); reversing the order of
  the slices only renames the slice (`plane_reverse`). The whole host chain — stage, reversal, stage, stage,
  reversal, stage — read at (n, i, j) is therefore four stencil passes over slice n, each intermediate clipped: the
  two reversals undo each other (`hostChain_apply`).
-/
import Idealize.ShloMosaic.Lib.KernelVsHost
import proofs.«102980_j52261162058495_1_alg».proof.Proof.StencilAlgebra

noncomputable section

namespace Cert.Stencil

open Idealize.ShloMosaic Idealize.ShloMosaic.ValueIdx

/-- The image's shape, the padded image's, and the scalar shape. -/
abbrev Img : Shape := ⟨3, ![32, 1024, 1024]⟩
abbrev Padded : Shape := ⟨3, ![32, 1025, 1025]⟩
abbrev Scal : Shape := ⟨0, ![]⟩

/-- The shape relations one stage's operations ask for. -/
structure StageFacts : Prop where
  pads : Img.Pads (![0, 0, 0] : Fin 3 → Nat) ![0, 1, 1] ![0, 0, 0] Padded
  pos : 0 < Scal.numel
  s00 : Padded.Slices ![0, 0, 0] Img
  s01 : Padded.Slices ![0, 0, 1] Img
  s10 : Padded.Slices ![0, 1, 0] Img
  s11 : Padded.Slices ![0, 1, 1] Img
  bc : Scal.BroadcastsInDim Img (![] : Fin 0 → Fin Img.rank)

section Stage
variable {F : FTy → Type} [FloatOps F]

/-- The image padded with the converted integer zero: one row below, one column to the right. -/
def padded (H : StageFacts) (y : FVec F Img .f32) : FVec F Padded .f32 :=
  pad Padded ![0, 0, 0] ![0, 1, 1] ![0, 0, 0] y (sitofp (F := F) .f32 (constantI Scal 32 0#32)) H.pads H.pos

/-- One stage: the four shifted copies of the padded image, weighted 1, 1/2, 1/2, 1/4 and summed left to right. -/
def hostStage (H : StageFacts) (y : FVec F Img .f32) : FVec F Img .f32 :=
  addf (addf (addf (extractStridedSlice Img ![0, 0, 0] (padded H y) H.s00)
      (mulf (broadcastInDim Img ![] H.bc (constant Scal .f32 0x3F000000#32)) (extractStridedSlice Img ![0, 0, 1] (padded H y) H.s01)))
      (mulf (broadcastInDim Img ![] H.bc (constant Scal .f32 0x3F000000#32)) (extractStridedSlice Img ![0, 1, 0] (padded H y) H.s10)))
    (mulf (broadcastInDim Img ![] H.bc (constant Scal .f32 0x3E800000#32)) (extractStridedSlice Img ![0, 1, 1] (padded H y) H.s11))

end Stage

/-- The padded image at (n, i, j), i and j up to 1024 included, is slice n extended by zero. -/
theorem padded_apply (H : StageFacts) (y : FVec Ideal Img .f32) (n : Fin 32) (i j : Fin 1025) :
    padded (F := Ideal) H y (ix3 n i j) = plane y n i.val j.val := by
  unfold padded
  by_cases h : i.val < 1024 ∧ j.val < 1024
  · rw [show plane y n i.val j.val = y (ix3 n ⟨i.val, h.1⟩ ⟨j.val, h.2⟩) from plane_apply y n ⟨i.val, h.1⟩ ⟨j.val, h.2⟩]
    exact pad_apply_of_inside _ _ _ y _ H.pads H.pos (ix3 n i j) (ix3 n ⟨i.val, h.1⟩ ⟨j.val, h.2⟩) (fun a => match a with
      | ⟨0, _⟩ => by show n.val = 0 + n.val * (0 + 1); omega
      | ⟨1, _⟩ => by show i.val = 0 + i.val * (0 + 1); omega
      | ⟨2, _⟩ => by show j.val = 0 + j.val * (0 + 1); omega)
  · rw [plane_of_not y n h]
    have hz : (sitofp (F := Ideal) .f32 (constantI Scal 32 0#32)) (Shape.Idx.first H.pos) = (0 : EReal) := by
      show ((((0#32 : BitVec 32).toInt : ℤ) : ℝ) : EReal) = 0
      simp
    by_cases hi : i.val < 1024
    · have hj : ¬ j.val < 1024 := fun hj => h ⟨hi, hj⟩
      rw [pad_apply_of_not_inside _ _ _ y _ H.pads H.pos (ix3 n i j) ⟨2, by decide⟩ (by
        intro h'
        have h3 : (j.val - 0) / (0 + 1) < 1024 := h'.2.2
        simp only [Nat.sub_zero, Nat.zero_add, Nat.div_one] at h3
        exact hj h3)]
      exact hz
    · rw [pad_apply_of_not_inside _ _ _ y _ H.pads H.pos (ix3 n i j) ⟨1, by decide⟩ (by
        intro h'
        have h3 : (i.val - 0) / (0 + 1) < 1024 := h'.2.2
        simp only [Nat.sub_zero, Nat.zero_add, Nat.div_one] at h3
        exact hi h3)]
      exact hz

/-- The copy of the padded image cut at offsets (o₁, o₂), each 0 or 1, reads the extension at (i + o₁, j + o₂). -/
theorem slice_padded (H : StageFacts) (y : FVec Ideal Img .f32) (o1 o2 : ℕ) (hs : Padded.Slices ![0, o1, o2] Img)
    (ho1 : o1 ≤ 1) (ho2 : o2 ≤ 1) (n : Fin 32) (i j : Fin 1024) :
    extractStridedSlice Img ![0, o1, o2] (padded (F := Ideal) H y) hs (ix3 n i j) = plane y n (i.val + o1) (j.val + o2) := by
  rw [extractStridedSlice_apply ![0, o1, o2] _ hs (ix3 n i j)
    (ix3 n (⟨i.val + o1, by have := i.isLt; omega⟩ : Fin 1025) (⟨j.val + o2, by have := j.isLt; omega⟩ : Fin 1025)) (fun a => match a with
      | ⟨0, _⟩ => by show n.val = 0 + n.val; omega
      | ⟨1, _⟩ => by show i.val + o1 = o1 + i.val; omega
      | ⟨2, _⟩ => by show j.val + o2 = o2 + j.val; omega)]
  exact padded_apply H y n _ _

/-- A broadcast scalar constant reads its value everywhere. -/
theorem splat_apply (H : StageFacts) (b : BitVec 32) (k : Img.Idx) :
    broadcastInDim Img ![] H.bc (constant (F := Ideal) Scal .f32 b) k = Ideal.ofBits .f32 b :=
  broadcastInDim_apply _ H.bc _ k ix0 (fun a => a.elim0)

/-- ONE STAGE AT AN INDEX: a stencil pass, weights 1/2 and 1/4 as the host spells them, over the slice's extension. -/
theorem hostStage_apply (H : StageFacts) (y : FVec Ideal Img .f32) (n : Fin 32) (i j : Fin 1024) :
    hostStage (F := Ideal) H y (ix3 n i j)
      = stencil (Ideal.ofBits .f32 0x3F000000#32) (Ideal.ofBits .f32 0x3E800000#32) (plane y n) i.val j.val := by
  unfold hostStage stencil
  rw [addf_apply, addf_apply, addf_apply, mulf_apply, mulf_apply, mulf_apply, splat_apply H, splat_apply H,
    slice_padded H y 0 0 H.s00 (by omega) (by omega), slice_padded H y 0 1 H.s01 (by omega) (by omega),
    slice_padded H y 1 0 H.s10 (by omega) (by omega), slice_padded H y 1 1 H.s11 (by omega) (by omega)]
  rfl

/-- A stage's result, stored and extended by zero again, is the stencil pass clipped to the box. -/
theorem plane_hostStage (H : StageFacts) (y : FVec Ideal Img .f32) (n : Fin 32) :
    plane (hostStage (F := Ideal) H y) n
      = clip (stencil (Ideal.ofBits .f32 0x3F000000#32) (Ideal.ofBits .f32 0x3E800000#32) (plane y n)) := by
  funext i j
  unfold clip
  by_cases h : i < 1024 ∧ j < 1024
  · rw [if_pos h]
    exact (plane_apply _ n ⟨i, h.1⟩ ⟨j, h.2⟩).trans (hostStage_apply H y n ⟨i, h.1⟩ ⟨j, h.2⟩)
  · rw [if_neg h]
    exact plane_of_not _ n h

/-- Reversing the order of the slices: slice n of the reversed image is slice 31 − n of the image. -/
theorem plane_reverse {α : Type} [Zero α] (y : Img.Idx → α) (n : Fin 32) :
    plane (Host.reverse [0] y) n = plane y n.rev := by
  funext i j
  unfold plane
  by_cases h : i < 1024 ∧ j < 1024
  · rw [dif_pos h, dif_pos h]
    unfold Host.reverse
    refine congrArg y (funext fun a => ?_)
    match a with
    | ⟨0, _⟩ => exact if_pos (List.mem_singleton.2 (Fin.ext rfl))
    | ⟨1, _⟩ => exact if_neg (fun hm => absurd (congrArg Fin.val (List.mem_singleton.1 hm)) (by decide : ¬ ((1 : ℕ) = 0)))
    | ⟨2, _⟩ => exact if_neg (fun hm => absurd (congrArg Fin.val (List.mem_singleton.1 hm)) (by decide : ¬ ((2 : ℕ) = 0)))
  · rw [dif_neg h, dif_neg h]

/-- THE HOST CHAIN AT AN INDEX: stage, reversal, stage, stage, reversal, stage is four stencil passes over the
    same slice, each intermediate clipped to the box; the two reversals cancel. -/
theorem hostChain_apply (H : StageFacts) (y : FVec Ideal Img .f32) (n : Fin 32) (i j : Fin 1024) :
    hostStage (F := Ideal) H (Host.reverse [0] (hostStage (F := Ideal) H (hostStage (F := Ideal) H
        (Host.reverse [0] (hostStage (F := Ideal) H y))))) (ix3 n i j)
      = stencil (Ideal.ofBits .f32 0x3F000000#32) (Ideal.ofBits .f32 0x3E800000#32)
          (clip (stencil (Ideal.ofBits .f32 0x3F000000#32) (Ideal.ofBits .f32 0x3E800000#32)
            (clip (stencil (Ideal.ofBits .f32 0x3F000000#32) (Ideal.ofBits .f32 0x3E800000#32)
              (clip (stencil (Ideal.ofBits .f32 0x3F000000#32) (Ideal.ofBits .f32 0x3E800000#32) (plane y n)))))))
          i.val j.val := by
  rw [hostStage_apply, plane_reverse, plane_hostStage, plane_hostStage, plane_reverse, plane_hostStage, Fin.rev_rev]

end Cert.Stencil

end
-- ==== Proof.ReferenceValue.lean ====
/-
  The host program's result as the stage chain. The host program is one stencil stage written out four times, with a
  reversal of the slices after the first and after the third; the term its run ends with is, operation for operation,
  stage ∘ reverse ∘ stage ∘ stage ∘ reverse ∘ stage of the argument (`result_eq_chain`: the two terms are the same
  term once the stage is written out). So the run ends with that chain of the argument in the result, the argument
  unchanged (`reference_run`).
-/
import proofs.«102980_j52261162058495_1_alg».proof.Proof.ReferenceRun
import proofs.«102980_j52261162058495_1_alg».proof.Proof.HostStage

noncomputable section

namespace Cert.Stencil

open Cert.ReferenceIdeal Cert.ReferenceIdeal.Gen Idealize.ShloMosaic Idealize.ShloMosaic.TcCoe Idealize.SL.Sem
open Idealize.ShloMosaic.StableHlo

/-- The shape relations the host program's operations state, as one stage asks for them. -/
theorem stageFacts : StageFacts where
  pads := Cert.ReferenceIdeal.Facts₀.pads_S32x1024x1024_S32x1025x1025_000_010_010
  pos := Cert.ReferenceIdeal.Facts₀.h_S_
  s00 := Cert.ReferenceIdeal.Facts₀.slices_S32x1025x1025_S32x1024x1024_0_0_0
  s01 := Cert.ReferenceIdeal.Facts₀.slices_S32x1025x1025_S32x1024x1024_0_0_1
  s10 := Cert.ReferenceIdeal.Facts₀.slices_S32x1025x1025_S32x1024x1024_0_1_0
  s11 := Cert.ReferenceIdeal.Facts₀.slices_S32x1025x1025_S32x1024x1024_0_1_1
  bc := Cert.ReferenceIdeal.Facts₀.bcast_S_S32x1024x1024

/-- The host program's whole computation on an image: stage, reversal, stage, stage, reversal, stage. -/
def hostImage {F : FTy → Type} [FloatOps F] (y : FVec F Img .f32) : FVec F Img .f32 :=
  hostStage stageFacts (Host.reverse [0] (hostStage stageFacts (hostStage stageFacts
    (Host.reverse [0] (hostStage stageFacts y)))))

set_option maxRecDepth 8192 in
set_option maxHeartbeats 4000000 in
/-- The term the host program's run ends with IS the stage chain of the argument: the same operations in the same
    order, for any float values. -/
theorem result_eq_chain {F : FTy → Type} [FloatOps F] (m : (ℓ : Loc nD τ sig) → Buf (Elt F) ℓ) (c : Dev nD) :
    Cert.ReferenceIdeal.Value.res_main_v57 m c = hostImage (F := F) (m ((c.tc : Thread nD τ).loc main_arg0)) := by
  unfold Cert.ReferenceIdeal.Value.res_main_v57 hostImage hostStage padded
  rfl

/-- The host program's run, read: it ends with the stage chain of the argument in the result, the argument
    unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v57) = hostImage (F := Ideal) (m ((c.tc : Thread nD τ).loc main_arg0))
      ∧ r.2.mem ((c.tc : Thread nD τ).loc main_arg0) = m ((c.tc : Thread nD τ).loc main_arg0) :=
  (θ_run defs _ _).mono (fun _ h c => ⟨(h c).1.trans (result_eq_chain m c), (h c).2⟩)
    (Cert.ReferenceIdeal.Value.run (F := Ideal) m ρ)

end Cert.Stencil

end
-- ==== Proof.ImagesEqual.lean ====
/-
  The two programs compute the same image. On an image of finite values, at every (n, i, j): the host's chain is
  four stencil passes with weights 1/2 and 1/4 over slice n, each intermediate clipped to the box; the kernel's image
  is the column pass over the clipped row pass of slice n with coefficients 1, 2, 3/2, 1/2, 1/16. The float words the
  programs spell denote exactly those rationals, and the two chains agree on finite values by the polynomial identity
  (1 + A/2)⁴ (1 + B/2)⁴ = the two binomial 5-tap passes.
-/
import proofs.«102980_j52261162058495_1_alg».proof.Proof.KernelArray
import proofs.«102980_j52261162058495_1_alg».proof.Proof.ReferenceValue
import proofs.«102980_j52261162058495_1_alg».proof.Proof.Consts

noncomputable section

namespace Cert.Stencil

open Idealize.ShloMosaic Idealize.ShloMosaic.ValueIdx

/-- On an image whose every entry is a real number, the host's chain and the kernel's image are one function. -/
theorem images_eq (x : Img.Idx → EReal) (hx : ∀ k, ∃ r : ℝ, x k = (r : EReal)) :
    hostImage (F := Ideal) x = kernelImage x := by
  choose xr hxr using hx
  obtain rfl : x = fun k => ((xr k : ℝ) : EReal) := funext hxr
  funext k
  obtain ⟨n, i, j, rfl⟩ : ∃ (n : Fin 32) (i j : Fin 1024), k = ix3 n i j := ⟨k 0, k 1, k 2, eq_ix3 k⟩
  unfold hostImage
  rw [hostChain_apply]
  show _ = colPass (Ideal.ofBits .f32 0x3F800000#32) (Ideal.ofBits .f32 0x40000000#32) (Ideal.ofBits .f32 0x3FC00000#32)
      (Ideal.ofBits .f32 0x3F000000#32) (Ideal.ofBits .f32 0x3D800000#32)
      (clip (rowPass (Ideal.ofBits .f32 0x3F800000#32) (Ideal.ofBits .f32 0x40000000#32) (Ideal.ofBits .f32 0x3FC00000#32)
        (Ideal.ofBits .f32 0x3F000000#32) (Ideal.ofBits .f32 0x3D800000#32)
        (plane (fun k => ((xr k : ℝ) : EReal)) n))) i.val j.val
  rw [Consts.ofBits_half, Consts.ofBits_quarter, Consts.ofBits_one, Consts.ofBits_two, Consts.ofBits_three_halves,
    Consts.ofBits_sixteenth]
  exact four_passes_eq_ereal xr n i.val j.val

end Cert.Stencil

end
-- ==== Proof.lean ====
/-
  A 2×2 stencil applied four times, against its fourth power in one pass.

  The reference pads an image of 32 slices of 1024 × 1024 with one zero row below and one zero column to the right and
  forms  x(i,j) + x(i,j+1)/2 + x(i+1,j)/2 + x(i+1,j+1)/4 ; it does so four times, reversing the order of the slices
  after the first and after the third time. The stencil acts on each slice by itself, so the two reversals cancel. With
  A the shift by one row and B the shift by one column (zeros coming in at the edge), the stencil is
  (1 + A/2)(1 + B/2); A and B commute, so four passes are (1 + A/2)⁴ (1 + B/2)⁴, and
  (1 + X/2)⁴ = 1 + 2X + (3/2)X² + (1/2)X³ + (1/16)X⁴. The kernel computes exactly that, slice by slice: a 5-tap pass
  along the rows and then one along the columns with those coefficients, each shift a rotation masked to zero where it
  wrapped around.

  Proof/StencilAlgebra.lean has the identity over ℝ and carries it to finite extended reals; the identity needs
  distributivity, which fails at ±∞, so the precondition (every input finite) is used: Proof/FiniteInputs.lean.
  Proof/HostStage.lean reads one stage of the reference at an index and Proof/ReferenceValue.lean identifies the
  reference's result with the stage chain; Proof/KernelTaps.lean, Proof/KernelBlock.lean and Proof/KernelArray.lean read
  a tap, the kernel's body on one block, and the whole output array; Proof/ImagesEqual.lean joins the two sides.
  The kernel's idealization rewrote nothing, so it is the kernel's own text read over the extended reals.
-/
import proofs.«102980_j52261162058495_1_alg».proof.Defs
import proofs.«102980_j52261162058495_1_alg».proof.Proof.Gen.Kernel
import proofs.«102980_j52261162058495_1_alg».proof.Proof.Gen.Kernel.Skeleton
import proofs.«102980_j52261162058495_1_alg».proof.Proof.Gen.Kernel.Launch
import proofs.«102980_j52261162058495_1_alg».proof.Proof.Gen.Kernel.Points
import proofs.«102980_j52261162058495_1_alg».proof.Proof.Gen.Kernel.Frame
import proofs.«102980_j52261162058495_1_alg».proof.Proof.Gen.KernelIdeal
import proofs.«102980_j52261162058495_1_alg».proof.Proof.Gen.KernelIdeal.Skeleton
import proofs.«102980_j52261162058495_1_alg».proof.Proof.Gen.KernelIdeal.Launch
import proofs.«102980_j52261162058495_1_alg».proof.Proof.Gen.KernelIdeal.Points
import proofs.«102980_j52261162058495_1_alg».proof.Proof.Gen.KernelIdeal.Frame
import proofs.«102980_j52261162058495_1_alg».proof.Proof.Gen.ReferenceIdeal
import proofs.«102980_j52261162058495_1_alg».proof.Proof.Gen.Pre_finite_inputs
import proofs.«102980_j52261162058495_1_alg».proof.Proof.Gen.KernelIdeal.Value
import proofs.«102980_j52261162058495_1_alg».proof.Proof.ReferenceRun
import proofs.«102980_j52261162058495_1_alg».proof.Proof.FiniteInputs
import proofs.«102980_j52261162058495_1_alg».proof.Proof.ImagesEqual
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference runs and leaves its argument alone: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on a finite image, the kernel ends with its image of it (the two binomial 5-tap passes,
    slice by slice) and the reference with the stage chain of it: one function on finite images. -/
theorem algebraic : Cert.algebraic_KernelIdeal_ReferenceIdeal := by
  intro m ρ m' ρ' hpre hagree
  refine ⟨fun c => Cert.Stencil.kernelImage (m ((c.tc : Thread Cert.KernelIdeal.nD Cert.KernelIdeal.τ).loc Cert.KernelIdeal.main_arg0)),
    Cert.Stencil.kernel_run m ρ, ?_⟩
  refine (θ_run Cert.ReferenceIdeal.defs _ _).mono (fun _ h c => ⟨(h c).1.trans ?_, (h c).2⟩)
    (Cert.Stencil.reference_run m' ρ')
  rw [hagree c]
  exact Cert.Stencil.images_eq _ (Cert.Stencil.real_of_pre _ (hpre c))

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
